-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S8000x512 : Shape := ⟨2, ![8000, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8000x512 : S_.BroadcastsInDim S8000x512 (![] : Fin 0 → Fin S8000x512.rank)
  reducesTo_S8000x512_S_d0_1 : S8000x512.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) (main_arg2 : FVec F S8000x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8000x512 .f32 := Host.absf main_arg2
  let main_cst_0 : FVec F S_ .f32 := constant S_ .f32 0x7F800000#32
  let main_v5 : FVec F S8000x512 .f32 := broadcastInDim S8000x512 ![] bcast_S_S8000x512 main_cst_0
  let main_v6 : IVec S8000x512 1 := cmpf .olt main_v4 main_v5
  let main_c_1 : IVec S_ 1 := constantI S_ 1 1#1
  let main_v7 : IVec S_ 1 := (fun x v => Host.reduce IntOp.andi x v reducesTo_S8000x512_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 8000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x512 : Shape := ⟨2, ![8192, 512]⟩
abbrev S8192 : Shape := ⟨1, ![8192]⟩
abbrev S8000x512 : Shape := ⟨2, ![8000, 512]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1024x512 : Shape := ⟨2, ![1024, 512]⟩
abbrev S1024x1 : Shape := ⟨2, ![1024, 1]⟩
abbrev S1024 : Shape := ⟨1, ![1024]⟩

abbrev nBuf : Space → Nat
  | .hbm => 31
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8000x512, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x512, .f32⟩
  | .hbm, ⟨22, _⟩ => ⟨S8192x512, .i1⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_cst_0 : Ref sig .tc := ⟨.hbm, 29, rfl⟩
abbrev main_v3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x512_0 : S8192.BroadcastsInDim S8192x512 (![0] : Fin 1 → Fin S8192x512.rank)
  bcast_S_S8192x512 : S_.BroadcastsInDim S8192x512 (![] : Fin 0 → Fin S8192x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  gather_S8000x512_S8192x1_S8192x512_1_0_n_n_0_1_1512_wf : GatherDims.WF S8000x512 S8192x1 S8192x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def gather_S8000x512_S8192x1_S8192x512_1_0_n_n_0_1_1512 : GatherDims S8000x512 S8192x1 S8192x512 where
  offsetDims := [1]
  collapsedSliceDims := [0]
  operandBatchingDims := []
  startIndicesBatchingDims := []
  startIndexMap := [0]
  indexVectorDim := 1
  sliceSizes := ![1, 512]
  wf := gather_S8000x512_S8192x1_S8192x512_1_0_n_n_0_1_1512_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S8000x512 : Shape := ⟨2, ![8000, 512]⟩
abbrev S_ : Shape := ⟨0, ![]⟩
abbrev S8192x1 : Shape := ⟨2, ![8192, 1]⟩
abbrev S8000 : Shape := ⟨1, ![8000]⟩
abbrev S1x8000 : Shape := ⟨2, ![1, 8000]⟩
abbrev S8192x8000 : Shape := ⟨2, ![8192, 8000]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8000x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8000x512, .f32⟩
  | .hbm, ⟨8, _⟩ => ⟨S_, .f32⟩
  | .hbm, ⟨9, _⟩ => ⟨S8000, .f32⟩
  | .hbm, ⟨10, _⟩ => ⟨S1x8000, .f32⟩
  | .hbm, ⟨11, _⟩ => ⟨S8192x8000, .f32⟩
  | .hbm, ⟨12, _⟩ => ⟨S8192x8000, .f32⟩
  | .hbm, ⟨13, _⟩ => ⟨S8192x8000, .f32⟩
  | .hbm, ⟨14, _⟩ => ⟨S8192x8000, .f32⟩
  | .hbm, ⟨15, _⟩ => ⟨S_, .f32⟩
  | .hbm, ⟨16, _⟩ => ⟨S8192x8000, .f32⟩
  | .hbm, ⟨17, _⟩ => ⟨S8192x8000, .f32⟩
  | .hbm, ⟨18, _⟩ => ⟨S8192x8000, .f32⟩
  | .hbm, ⟨19, _⟩ => ⟨S8192x1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S_, .i32⟩
  | .hbm, ⟨24, _⟩ => ⟨S8192x1, .i32⟩
  | .hbm, ⟨25, _⟩ => ⟨S8192x1, .i32⟩
  | .hbm, ⟨26, _⟩ => ⟨S8192x1, .i32⟩
  | .hbm, ⟨27, _⟩ => ⟨S8192x1x1, .i32⟩
  | .hbm, ⟨28, _⟩ => ⟨S1, .i32⟩
  | .hbm, ⟨29, _⟩ => ⟨S_, .i32⟩
  | .hbm, ⟨30, _⟩ => ⟨S8192x1x1, .i32⟩
  | .hbm, ⟨31, _⟩ => ⟨S8192x1x1, .i1⟩
  | .hbm, ⟨32, _⟩ => ⟨S1x1x1, .i32⟩
  | .hbm, ⟨33, _⟩ => ⟨S8192x1x1, .i32⟩
  | .hbm, ⟨34, _⟩ => ⟨S8192x1x1, .i1⟩
  | .hbm, ⟨35, _⟩ => ⟨S8192x1x1, .i1⟩
  | .hbm, ⟨36, _⟩ => ⟨S_, .i1⟩
  | .hbm, ⟨37, _⟩ => ⟨S8192x1, .i1⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v16 : Ref sig .tc := ⟨.hbm, 50, rfl⟩
abbrev main_cst_4 : Ref sig .tc := ⟨.hbm, 51, rfl⟩
abbrev main_v17 : Ref sig .tc := ⟨.hbm, 52, rfl⟩
abbrev main_cst_5 : Ref sig .tc := ⟨.hbm, 53, rfl⟩
abbrev main_v18 : Ref sig .tc := ⟨.hbm, 54, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S8000x512_S8000_d1 : S8000x512.ReducesTo [1] S8000
  bcast_S8000_S1x8000_1 : S8000.BroadcastsInDim S1x8000 (![1] : Fin 1 → Fin S1x8000.rank)
  bcast_S8192x1_S8192x8000_0_1 : S8192x1.BroadcastsInDim S8192x8000 (![0, 1] : Fin 2 → Fin S8192x8000.rank)
  bcast_S1x8000_S8192x8000_0_1 : S1x8000.BroadcastsInDim S8192x8000 (![0, 1] : Fin 2 → Fin S8192x8000.rank)
  bcast_S_S8192x8000 : S_.BroadcastsInDim S8192x8000 (![] : Fin 0 → Fin S8192x8000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  reducesTo_S8192_S_d0 : S8192.ReducesTo [0] S_
  dot_S8192x512_S8000x512_S8192x8000_1_1_0_0_n_n_wf : DotDims.WF S8192x512 S8000x512 S8192x8000 [1] [1] [0] [0] [] []
  gather_S8192x8000_S8192x1x1_S8192x1_n_1_0_0_1_2_11_wf : GatherDims.WF S8192x8000 S8192x1x1 S8192x1 [] [1] [0] [1] [0] 2 ![1, 1]

variable [Facts₀]

def dot_S8192x512_S8000x512_S8192x8000_1_1_0_0_n_n : DotDims S8192x512 S8000x512 S8192x8000 where
  lhsContracting := [1]
  rhsContracting := [1]
  lhsNonContracting := [0]
  rhsNonContracting := [0]
  lhsBatch := []
  rhsBatch := []
  wf := dot_S8192x512_S8000x512_S8192x8000_1_1_0_0_n_n_wf
def gather_S8192x8000_S8192x1x1_S8192x1_n_1_0_0_1_2_11 : GatherDims S8192x8000 S8192x1x1 S8192x1 where
  offsetDims := []
  collapsedSliceDims := [1]
  operandBatchingDims := [0]
  startIndicesBatchingDims := [0]
  startIndexMap := [1]
  indexVectorDim := 2
  sliceSizes := ![1, 1]
  wf := gather_S8192x8000_S8192x1x1_S8192x1_n_1_0_0_1_2_11_wf

class Facts : Prop extends Facts₀ where

variable [Facts]
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.LabelRange.lean ====
/-
  What the precondition says of the labels: its last conjunct is `all (labels ≥ 0 ∧ labels < 8000)`, so every label
  passes both signed comparisons, and its signed value lies in `[0, 8000)`: a valid row of the 8000 centers.
-/
import proofs.«427985_j5738076307838_3_alg».proof.Pre_finite_inputs
import proofs.«427985_j5738076307838_3_alg».proof.Proof.LibIndexRange
import Idealize.ShloMosaic.Lib.ValueIdx

namespace Cert.LabelRange

open Idealize.ShloMosaic Cert.Pre_finite_inputs

variable [Cert.Pre_finite_inputs.Facts] {F : FTy → Type} [FloatOps F]

instance : Subsingleton S_.Idx := ⟨fun _ _ => funext fun d => d.elim0⟩

/-- Under the precondition every label passes `0 ≤ label` and `label < 8000`. -/
theorem cmp_of_pre (x : FVec F S8192x512 .f32) (L : IVec S8192 32) (c : FVec F S8000x512 .f32)
    (h : Cert.Pre_finite_inputs.fn (F := F) x L c = fun _ => 1#1) (i : S8192.Idx) :
    IntOp.cmpi .sge (L i) 0#32 = 1#1 ∧ IntOp.cmpi .slt (L i) 8000#32 = 1#1 := by
  have h0 := congrFun h ValueIdx.ix0
  dsimp only [Cert.Pre_finite_inputs.fn] at h0
  have h14 := (IntOp.andi_eq_one.1 h0).2
  have hi := Host.reduce_andi_all _ _ _ _ _ h14 i
  exact IntOp.andi_eq_one.1 hi

/-- So its signed value is a row number of the centers. -/
theorem toInt_mem (x : FVec F S8192x512 .f32) (L : IVec S8192 32) (c : FVec F S8000x512 .f32)
    (h : Cert.Pre_finite_inputs.fn (F := F) x L c = fun _ => 1#1) (i : S8192.Idx) :
    0 ≤ (L i).toInt ∧ (L i).toInt < 8000 := by
  obtain ⟨h0, h1⟩ := cmp_of_pre x L c h i
  exact IndexRange.toInt_mem_of_cmpi 8000 (by norm_num) h0 h1

end Cert.LabelRange
-- ==== Proof.LibRowSum.lean ====
/-
  A row sum kept as a column, read at the extended reals: for a rectangle `v : [n, d]`, the lane reduction over axis 1
  followed by the cast of the `[n]` result to `[n, 1]` (jnp's `sum(axis=1, keepdims=True)`) holds at `(r, 0)` the sum
  over the `d` columns of row `r`.
-/
import Idealize.ShloMosaic.PureOps.Ideal.Laws
import Idealize.ShloMosaic.Lib.Pipeline.Value
import Idealize.ShloMosaic.Lib.ValueIdx

open scoped BigOperators

namespace Idealize.ShloMosaic.RowSum

open Idealize.ShloMosaic Idealize.ShloMosaic.ValueIdx

/-- Over row `r` of the reduced vector, the source index with column `k` put back is `(r, k)`. -/
theorem lift_row {n d : Nat} (h : (⟨2, ![n, d]⟩ : Shape).Reduces [1] ⟨1, ![n]⟩) (r : Fin n) (k : Fin d) :
    h.lift (ix1 r) k = ix2 r k := by
  funext c
  refine Fin.ext ?_
  match c with
  | ⟨0, _⟩ => rfl
  | ⟨1, _⟩ => rfl

/-- The lane sum over axis 1 at row `r`: the sum of the row's `d` entries. -/
theorem rowSum_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (r : Fin n) :
    multiReduction .add [1] ⟨1, ![n]⟩ v acc h hφ hacc (ix1 r) = ∑ k : Fin d, v (ix2 r k) :=
  (Ideal.multiReduction_add_single v acc h hφ hacc (ix1 r)).trans
    (Finset.sum_congr rfl fun k _ => congrArg v (lift_row h r k))

/-- The same sum kept as a column `[n, 1]`, read at `(r, 0)`. -/
theorem rowSum_keepdims_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (hc : (⟨1, ![n]⟩ : Shape).ShapeCasts ⟨2, ![n, 1]⟩) (r : Fin n) (z : Fin 1) :
    shapeCast ⟨2, ![n, 1]⟩ (multiReduction .add [1] ⟨1, ![n]⟩ v acc h hφ hacc) hc (ix2 r z)
      = ∑ k : Fin d, v (ix2 r k) := by
  rw [shapeCast_apply _ hc (ix2 r z) (ix1 r) (by
    rw [Shape.rowMajor_val_one, Shape.rowMajor_val_two]
    show r.val = r.val * 1 + z.val
    omega)]
  exact rowSum_apply v acc h hφ hacc r

end Idealize.ShloMosaic.RowSum
-- ==== Proof.Spec.lean ====
/-
  The quantity both programs compute, stated once over the argument arrays.

  For sample `i` with features `x i` (512 numbers) and label `L i`, let `c (row L i)` be the center its label names.
  The clamped squared distance of the pair is
      min hi (max lo ((∑ x² + ∑ c²) - 2 · ∑ x·c))
  with `lo`, `hi` the two clamp literals, and the result is the mean of these 8192 numbers: their sum divided by 8192.
  The literals stay as the words both programs print; none is evaluated.
-/
import Idealize.ShloMosaic.PureOps.Ideal
import Idealize.ShloMosaic.Lib.ValueIdx

noncomputable section

open scoped BigOperators

namespace Cert.Spec

open Idealize.ShloMosaic Idealize.ShloMosaic.ValueIdx

/-- The clamped squared distance between two vectors of 512 extended reals, in the programs' own association:
    `(‖a‖² + ‖b‖²) - 2·⟨a, b⟩`, then the lower clamp, then the upper. -/
def clampedDist (a b : Fin 512 → EReal) : EReal :=
  min (Ideal.ofBits .f32 0x5368D4A5#32) (max (Ideal.ofBits .f32 0x2B8CBCCC#32)
    (((∑ k : Fin 512, a k * a k) + (∑ k : Fin 512, b k * b k))
      - Ideal.ofBits .f32 0x40000000#32 * (∑ k : Fin 512, a k * b k)))

/-- The row of the centers a label names: the label read signed and clamped into `[0, 7999]` (both programs read the
    table through a gather, which clamps; under the precondition the clamp does nothing). -/
def row (L : IVec ⟨1, ![8192]⟩ 32) (i : Fin 8192) : Fin 8000 :=
  ⟨min (L (ix1 i)).toInt.toNat 7999, by omega⟩

/-- Sample `i`'s clamped squared distance to its own center. -/
def sampleDist (x : (⟨2, ![8192, 512]⟩ : Shape).Idx → EReal) (L : IVec ⟨1, ![8192]⟩ 32)
    (c : (⟨2, ![8000, 512]⟩ : Shape).Idx → EReal) (i : Fin 8192) : EReal :=
  clampedDist (fun k => x (ix2 i k)) (fun k => c (ix2 (row L i) k))

/-- The mean over the 8192 samples: the host's sum from its zero literal, divided by the literal 8192. -/
def meanDist (x : (⟨2, ![8192, 512]⟩ : Shape).Idx → EReal) (L : IVec ⟨1, ![8192]⟩ 32)
    (c : (⟨2, ![8000, 512]⟩ : Shape).Idx → EReal) : EReal :=
  Ideal.div (Ideal.ofBits .f32 0x00000000#32 + ∑ i : Fin 8192, sampleDist x L c i) (Ideal.ofBits .f32 0x46000000#32)

end Cert.Spec

end
-- ==== Proof.KernelBody.lean ====
/-
  The kernel body's arithmetic at one row: from the two loaded blocks (1024 samples and their 1024 gathered centers)
  the stored column holds, at row `r`, the clamped squared distance between row `r` of the one and row `r` of the other.
  The three lane sums are sums over the 512 columns; everything else in the body is pointwise.
-/
import proofs.«427985_j5738076307838_3_alg».proof.Proof.Gen.KernelIdeal.Skeleton
import proofs.«427985_j5738076307838_3_alg».proof.Proof.LibRowSum
import proofs.«427985_j5738076307838_3_alg».proof.Proof.Spec

noncomputable section

open scoped BigOperators

namespace Cert.KernelIdeal.Body

open Cert.KernelIdeal Cert.KernelIdeal.Gen Idealize.ShloMosaic Idealize.ShloMosaic.ValueIdx

/-- The stored value at row `r` (its one column `z`): the clamped squared distance of the two blocks' rows `r`. -/
theorem pay_apply (x0 x1 : FVec Ideal S1024x512 .f32) (r : Fin 1024) (z : Fin 1) :
    k0_pay1 (F := Ideal) x0 x1 (ix2 r z)
      = Cert.Spec.clampedDist (fun k => x0 (ix2 r k)) (fun k => x1 (ix2 r k)) := by
  unfold k0_pay1 Cert.Spec.clampedDist
  simp only [shapeCast_self]
  -- each lane sum, kept as a column, at row r: the sum over the 512 columns of the pointwise product's row r
  have s (a b : FVec Ideal S1024x512 .f32) :
      shapeCast S1024x1 (multiReduction .add [1] S1024 (mulf a b) 0x00000000#32 reduces_S1024x512_S1024 (.inl rfl) rfl)
        shapeCasts_S1024_S1024x1 (ix2 r z) = ∑ k : Fin 512, a (ix2 r k) * b (ix2 r k) :=
    RowSum.rowSum_keepdims_apply (mulf a b) _ _ _ _ _ r z
  exact congrArg₂ min rfl (congrArg₂ max rfl
    (congrArg₂ (· - ·) (congrArg₂ (· + ·) (s x0 x0) (s x1 x1)) (congrArg₂ (· * ·) rfl (s x0 x1))))

end Cert.KernelIdeal.Body

end
-- ==== Proof.KernelBlocks.lean ====
/-
  From the kernel's eight row tiles to its whole output column.

  Grid point `t` loads rows `1024 t … 1024 t + 1023` of the samples and of the gathered centers and writes back rows
  `1024 t …` of the `[8192, 1]` output; by the body's arithmetic, what it writes is that tile of ONE column: at row `i`
  the clamped squared distance between row `i` of the samples and row `i` of the gathered centers. The eight tiles
  cover the column (row `i` lies in tile `i / 1024`), so after the region the output array is that column.
-/
import proofs.«427985_j5738076307838_3_alg».proof.Proof.Gen.KernelIdeal.Frame
import proofs.«427985_j5738076307838_3_alg».proof.Proof.KernelBody
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The column of clamped squared distances between equal rows of two `[8192, 512]` arrays. -/
def col (X G : FVec Ideal S8192x512 .f32) : FVec Ideal S8192x1 .f32 := fun i =>
  Cert.Spec.clampedDist (fun k => X (ix2 ⟨(i 0).val, idx2_lt0 i⟩ k)) (fun k => G (ix2 ⟨(i 0).val, idx2_lt0 i⟩ k))

/-- The three index maps over the grid: every window's block row is the grid point, its block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the column of distances between the samples and the gathered centers
    as the region finds them. -/
theorem flushed_eq (c : Dev nD) (t : Fin cfg0.N) :
    (dats m 0 c).flushed 2 t
      = ((cfg0.win 2).blk t).view.read (Elt Ideal) (col (V m c main_arg0) (V m c main_v0)) := by
  show (cfg0.win 2).cut (grid0.coords t) ((dats m 0 c).after 2 t) = _
  rw [after0_2]
  unfold out0_2
  rw [View.canon_unit_zero hz]
  simp only [View.ld_unit_zero (S := S1024x512) hz]
  obtain ⟨e00, e01, e10, e11, e20, e21⟩ := idx_facts t
  refine funext fun (j : S1024x1.Idx) => ?_
  obtain ⟨r, z, rfl⟩ : ∃ (r : Fin 1024) (z : Fin 1), j = ix2 r z := ⟨j 0, j 1, eq_ix2 j⟩
  refine (Body.pay_apply (iblk m c 0 t) (iblk m c 1 t) r z).trans ?_
  show Cert.Spec.clampedDist _ _ = Cert.Spec.clampedDist _ _
  congr 1
  · funext k
    show V m c main_arg0 (((cfg0.win 0).blk t).view.emb (ix2 r k)) = V m c main_arg0 _
    congr 1
    funext a
    apply Fin.ext
    match a with
    | ⟨0, _⟩ =>
      show win0_0.index t (0 : Fin 2) * 1024 + 1 * r.val = win0_2.index t (0 : Fin 2) * 1024 + 1 * r.val
      omega
    | ⟨1, _⟩ =>
      show win0_0.index t (1 : Fin 2) * 512 + 1 * k.val = k.val
      omega
  · funext k
    show V m c main_v0 (((cfg0.win 1).blk t).view.emb (ix2 r k)) = V m c main_v0 _
    congr 1
    funext a
    apply Fin.ext
    match a with
    | ⟨0, _⟩ =>
      show win0_1.index t (0 : Fin 2) * 1024 + 1 * r.val = win0_2.index t (0 : Fin 2) * 1024 + 1 * r.val
      omega
    | ⟨1, _⟩ =>
      show win0_1.index t (1 : Fin 2) * 512 + 1 * k.val = k.val
      omega

/-- Every row of the output lies in the tile of the point `row / 1024`. -/
theorem cover (i : S8192x1.Idx) :
    ∃ t : Fin cfg0.N, (cfg0.win 2).flush t = true ∧ i ∈ ((cfg0.win 2).blk t).view.set := by
  have h0 : (i 0).val < 8192 := (i 0).isLt
  have h1 : (i 1).val < 1 := (i 1).isLt
  have hN : cfg0.N = 8 := N_0
  have ht : (i 0).val / 1024 < cfg0.N := by rw [hN]; omega
  obtain ⟨-, -, -, -, e20, e21⟩ := idx_facts ⟨(i 0).val / 1024, ht⟩
  refine ⟨⟨(i 0).val / 1024, ht⟩, flush0_2 _, ?_⟩
  show i ∈ ((View.whole main_v1).slice (win0_2.rect ⟨(i 0).val / 1024, ht⟩)).set
  rw [View.set_slice_whole, Rect.mem_set_unit]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e20]
    show (i 0).val / 1024 * 1024 ≤ (i 0).val ∧ (i 0).val < (i 0).val / 1024 * 1024 + 1024
    omega
  | ⟨1, _⟩ =>
    show win0_2.index ⟨(i 0).val / 1024, ht⟩ (1 : Fin 2) * 1 ≤ (i 1).val
      ∧ (i 1).val < win0_2.index ⟨(i 0).val / 1024, ht⟩ (1 : Fin 2) * 1 + 1
    rw [e21]
    omega

/-- After the region the output array is the whole column. -/
theorem final (c : Dev nD) : (dats m 0 c).arrAt 2 cfg0.N = col (V m c main_arg0) (V m c main_v0) :=
  (dats m 0 c).arrAt_eq_of_cover 2 (col (V m c main_arg0) (V m c main_v0)) (fun t _ => flushed_eq m c t) cover

end Cert.KernelIdeal.Blocks

end
-- ==== Proof.LibTakeRows.lean ====
/-
  Two shapes of `stablehlo.gather` that jnp's indexing by an integer vector lowers to, each read at one result index.

  * ROWS OF A TABLE (`jnp.take(table, idx, axis=0)` of a table `[N, D]` at `n` positions, the start indices an
    `[n, 1]` column): result element `(i, k)` is the table's element `(r, k)`, where `r` is the start index of position
    `i` read signed and clamped into `[0, N - 1]`.
  * ONE ELEMENT PER ROW (`jnp.take_along_axis(a, idx[:, None], axis=1)` of `a : [n, M]`, row `i` being a batch of its
    own, the start indices `[n, 1, 1]`): result element `(i, q)` is `a`'s element `(i, r)`, where `r` is the start
    index at `(i, q, 0)` read signed and clamped into `[0, M - 1]`.

  The dimension numbers are spelt field by field as a printed program's record is, so that record is one of these by `rfl`.
-/
import Idealize.ShloMosaic.Lib.ValueIdx

namespace Idealize.ShloMosaic.TakeRows

open Idealize.ShloMosaic Idealize.ShloMosaic.ValueIdx

variable {α : Type}

/-! ## Rows of a table -/

/-- The dimension numbers of a row take: operand `[N, D]`, start indices `[n, 1]`, result `[n, D]`. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- A row take read at `(i, k)`: column `k` of the row the clamped start index of position `i` names. -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (i : Fin n) (k : Fin D) :
    Host.gather (rowDims N D n wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowDims N D n wf).start (ix2 i k) idx 0 + (rowDims N D n wf).batchCoord (ix2 i k) 0
      + (rowDims N D n wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 i k) ⟨List.idxOf (0 : Fin 2) (rowDims N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N D n wf).start (ix2 i k) idx 1 + (rowDims N D n wf).batchCoord (ix2 i k) 1
      + (rowDims N D n wf).offCoord (ix2 i k) 1 = k.val
    rw [GatherDims.batchCoord_eq_zero _ _ _ List.not_mem_nil]
    unfold GatherDims.start
    rw [dif_neg (show ¬(1 : Fin 2) ∈ (rowDims N D n wf).startIndexMap from (by decide : (1 : Fin 2) ∉ ([0] : List (Fin 2))))]
    simp only [Nat.add_zero, Nat.zero_add]
    rfl

/-! ## One element per row -/

/-- The dimension numbers of `take_along_axis` along axis 1 with one index per row: operand `[n, M]`, start
    indices `[n, Q, 1]`, result `[n, Q]`; axis 0 is a batching axis of both. -/
abbrev alongDims (n M Q : Nat)
    (wf : GatherDims.WF ⟨2, ![n, M]⟩ ⟨3, ![n, Q, 1]⟩ ⟨2, ![n, Q]⟩ [] [1] [0] [1] [0] 2 ![1, 1]) :
    GatherDims ⟨2, ![n, M]⟩ ⟨3, ![n, Q, 1]⟩ ⟨2, ![n, Q]⟩ where
  offsetDims := []
  collapsedSliceDims := [1]
  operandBatchingDims := [0]
  startIndicesBatchingDims := [0]
  startIndexMap := [1]
  indexVectorDim := 2
  sliceSizes := ![1, 1]
  wf := wf

/-- That gather read at `(i, q)`: row `i` of the operand at the clamped start index at `(i, q, 0)`. -/
theorem alongTake_apply {n M Q w : Nat} (hM : 0 < M)
    (wf : GatherDims.WF ⟨2, ![n, M]⟩ ⟨3, ![n, Q, 1]⟩ ⟨2, ![n, Q]⟩ [] [1] [0] [1] [0] 2 ![1, 1])
    (x : (⟨2, ![n, M]⟩ : Shape).Idx → α) (idx : IVec ⟨3, ![n, Q, 1]⟩ w) (i : Fin n) (q : Fin Q) :
    Host.gather (alongDims n M Q wf) x idx (ix2 i q)
      = x (ix2 i ⟨min (idx (ix3 i q (0 : Fin 1))).toInt.toNat (M - 1), by omega⟩) := by
  unfold Host.gather
  congr 1
  funext a
  refine Fin.ext ?_
  match a with
  | ⟨0, _⟩ =>
    show (alongDims n M Q wf).start (ix2 i q) idx 0 + (alongDims n M Q wf).batchCoord (ix2 i q) 0
      + (alongDims n M Q wf).offCoord (ix2 i q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (alongDims n M Q wf).start (ix2 i q) idx 1 + (alongDims n M Q wf).batchCoord (ix2 i q) 1
      + (alongDims n M Q wf).offCoord (ix2 i q) 1 = _
    rw [GatherDims.batchCoord_eq_zero _ _ _ (show ¬(1 : Fin 2) ∈ (alongDims n M Q wf).operandBatchingDims from (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims n M Q wf).startIndexMap from List.mem_singleton.mpr rfl)]
    have hsi : (alongDims n M Q wf).siIdx (ix2 i q) ⟨List.idxOf (1 : Fin 2) (alongDims n M Q wf).startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    rfl

end Idealize.ShloMosaic.TakeRows
-- ==== Proof.KernelTake.lean ====
/-
  The kernel's host prefix: `jnp.take(centers, labels, axis=0)`.

  The lines before the pallas_call make a label absolute (`label + 8000` if negative), test it against `[0, 7999]`,
  gather the row it names, and put the fill value in rows whose label fails the test. For labels in `[0, 8000)` the
  first step changes nothing and the test passes, so row `i` of the array the region finds is row `label i` of the centers.
-/
import proofs.«427985_j5738076307838_3_alg».proof.Proof.Gen.KernelIdeal.Frame
import proofs.«427985_j5738076307838_3_alg».proof.Proof.LibIndexRange
import proofs.«427985_j5738076307838_3_alg».proof.Proof.LibTakeRows
import proofs.«427985_j5738076307838_3_alg».proof.Proof.Spec
import Idealize.ShloMosaic.Lib.StableHlo.Run
import Idealize.ShloMosaic.Lib.Pipeline.Value

noncomputable section

namespace Cert.KernelIdeal.Take

open Cert.KernelIdeal Cert.KernelIdeal.Gen Idealize.ShloMosaic Idealize.ShloMosaic.TcCoe Idealize.SL.Sem
open Idealize.ShloMosaic.ValueIdx

variable {F : FTy → Type} [FloatOps F]

/-- The start indices: each label made absolute, as a column. -/
def labelIdx (L : IVec S8192 32) : IVec S8192x1 32 :=
  broadcastInDim S8192x1 ![0] bcast_S8192_S8192x1_0
    (select (cmpi .slt L (broadcastInDim S8192 ![] bcast_S_S8192 (constantI S_ 32 0#32)))
      (addi L (broadcastInDim S8192 ![] bcast_S_S8192 (constantI S_ 32 8000#32))) L)

/-- The range test of each start index: `0 ≤ idx ∧ idx ≤ 7999`. -/
def labelOk (L : IVec S8192 32) : IVec S8192 1 :=
  Host.reduce IntOp.andi
    (andi (cmpi .sge (labelIdx L) (broadcastInDim S8192x1 ![] bcast_S_S8192x1 (constantI S_ 32 0#32)))
      (cmpi .sle (labelIdx L) (broadcastInDim S8192x1 ![0, 1] bcast_S1x1_S8192x1_0_1
        (broadcastInDim S1x1 ![1] bcast_S1_S1x1_1 (constantI S1 32 7999#32)))))
    (constantI S_ 1 1#1) reducesTo_S8192x1_S8192_d1 h_S_

/-- The gathered centers: the row each start index names where the test passes, the fill value elsewhere. -/
def takeRows (C : FVec F S8000x512 .f32) (L : IVec S8192 32) : FVec F S8192x512 .f32 :=
  select (broadcastInDim S8192x512 ![0] bcast_S8192_S8192x512_0 (labelOk L))
    (Host.gather gather_S8000x512_S8192x1_S8192x512_1_0_n_n_0_1_1512 C (labelIdx L))
    (broadcastInDim S8192x512 ![] bcast_S_S8192x512 (constant S_ .f32 0x7FC00000#32))

/-- The second operand of the pallas_call, as the region finds it, is that array of the two arguments. -/
theorem V_main_v0 (m : (ℓ : Loc nD τ sig) → Buf (Elt F) ℓ) (c : Dev nD) :
    (V m c main_v0 : S8192x512.Idx → Elt F .f32)
      = takeRows (m ((c : Thread nD τ).loc main_arg2)) (m ((c : Thread nD τ).loc main_arg1)) := by
  dsimp only [V, V0]
  simp only [List.flatten_cons, List.flatten_nil, List.append_nil]
  unfold takeRows labelOk labelIdx
  after_results_simp <;> (try simp only [StableHlo.TRef.ofBuf, StableHlo.TRef.toBuf, cast_eq]) <;> rfl

/-- A start index of a label in range is the label. -/
theorem labelIdx_apply (L : IVec S8192 32) (i : Fin 8192) (z : Fin 1) (h0 : 0 ≤ (L (ix1 i)).toInt) :
    labelIdx L (ix2 i z) = L (ix1 i) := by
  unfold labelIdx
  rw [broadcastInDim_apply _ bcast_S8192_S8192x1_0 _ (ix2 i z) (ix1 i) (fun a => match a with
    | ⟨0, _⟩ => by show i.val = if (8192 : Nat) = 1 then 0 else i.val; rw [if_neg (by decide)])]
  exact IndexRange.select_wrap_eq 8000#32 h0

/-- With every label in `[0, 8000)` every range test passes. -/
theorem labelOk_apply (L : IVec S8192 32) (hL : ∀ i : Fin 8192, 0 ≤ (L (ix1 i)).toInt ∧ (L (ix1 i)).toInt < 8000)
    (j : S8192.Idx) : labelOk L j = 1#1 := by
  unfold labelOk
  refine IndexRange.reduce_andi_of_forall _ _ _ _ rfl (fun y => ?_) j
  obtain ⟨i, z, rfl⟩ : ∃ (i : Fin 8192) (z : Fin 1), y = ix2 i z := ⟨y 0, y 1, eq_ix2 y⟩
  obtain ⟨h0, h1⟩ := hL i
  show IntOp.andi (IntOp.cmpi .sge (labelIdx L (ix2 i z)) 0#32) (IntOp.cmpi .sle (labelIdx L (ix2 i z)) 7999#32) = 1#1
  rw [labelIdx_apply L i z h0, IndexRange.sge_zero_eq_one h0, IndexRange.sle_eq_one 7999 (by norm_num) (by omega)]
  decide

/-- So row `i` of the gathered array is the row of the centers that label `i` names. -/
theorem takeRows_apply (C : FVec F S8000x512 .f32) (L : IVec S8192 32)
    (hL : ∀ i : Fin 8192, 0 ≤ (L (ix1 i)).toInt ∧ (L (ix1 i)).toInt < 8000) (i : Fin 8192) (k : Fin 512) :
    takeRows C L (ix2 i k) = C (ix2 (Cert.Spec.row L i) k) := by
  unfold takeRows
  rw [select_apply]
  have hok : broadcastInDim S8192x512 ![0] bcast_S8192_S8192x512_0 (labelOk L) (ix2 i k) = 1#1 :=
    labelOk_apply L hL _
  rw [hok, select_one]
  refine (TakeRows.rowTake_apply (by norm_num) gather_S8000x512_S8192x1_S8192x512_1_0_n_n_0_1_1512_wf C (labelIdx L) i k).trans ?_
  exact congrArg (fun r => C (ix2 r k)) (Fin.ext (by
    show min (labelIdx L (ix2 i 0)).toInt.toNat (8000 - 1) = min (L (ix1 i)).toInt.toNat 7999
    rw [labelIdx_apply L i 0 (hL i).1]))

end Cert.KernelIdeal.Take

end
-- ==== Proof.KernelMean.lean ====
/-
  The kernel's host tail and its whole run, read at the extended reals.

  After the region @main sums the `[8192, 1]` output column from its zero literal and divides by the literal 8192.
  The column is the clamped squared distance of each sample to row `i` of the gathered centers, and for labels in
  `[0, 8000)` row `i` of the gathered centers is the center label `i` names: the result is the specification's mean.
-/
import proofs.«427985_j5738076307838_3_alg».proof.Proof.KernelBlocks
import proofs.«427985_j5738076307838_3_alg».proof.Proof.KernelTake
import Idealize.ShloMosaic.Lib.StableHlo.Run
import Idealize.ShloMosaic.PureOps.Ideal.Laws

noncomputable section

open scoped BigOperators

namespace Cert.KernelIdeal.Mean

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The lines after the region, as a function of the output column: its sum from the zero literal, over 8192. -/
def tail (y : FVec Ideal S8192x1 .f32) : FVec Ideal S_ .f32 :=
  Host.divf (F := Ideal) (Host.reduceAdd (F := Ideal) y (constant (F := Ideal) S_ .f32 0x00000000#32) reducesTo_S8192x1_S_d0_1 h_S_)
    (constant (F := Ideal) S_ .f32 0x46000000#32)

/-- The result buffer after the tail is `tail` of the output array the region leaves. -/
theorem tail_result (c : Dev nD) :
    Pipeline.afterTail₀ cfgs (dats m) 0 (V0 m) [hostOps1] c main_v3 = tail ((dats m 0 c).arrAt 2 cfg0.N) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c (V0 m c) (fun w => (dats m 0 c).arrAt w cfg0.N) 2
  unfold tail
  rw [e]

/-- `tail` of a column of distances: the sum over the 8192 rows from the zero literal, over 8192. -/
theorem tail_col (X G : FVec Ideal S8192x512 .f32) :
    tail (Blocks.col X G) = fun _ =>
      Ideal.div (Ideal.ofBits .f32 0x00000000#32
          + ∑ i : Fin 8192, Cert.Spec.clampedDist (fun k => X (ix2 i k)) (fun k => G (ix2 i k)))
        (Ideal.ofBits .f32 0x46000000#32) := by
  funext j
  unfold tail
  simp only [Host.divf, Host.reduceAdd, Ideal.hostReduceAdd_def, Ideal.hostDivf_def]
  rw [Ideal.hostReduceAdd_total reducesTo_S8192x1_S_d0_1 (fun b => b.elim0), sum_idx2]
  simp only [Fin.sum_univ_one]
  rfl

/-- THE KERNEL'S RESULT: for labels in `[0, 8000)`, `tail` of the column of distances between the samples and the
    gathered centers is the specification's mean. -/
theorem tail_eq_mean (X : FVec Ideal S8192x512 .f32) (L : IVec S8192 32) (C : FVec Ideal S8000x512 .f32)
    (hL : ∀ i : Fin 8192, 0 ≤ (L (ix1 i)).toInt ∧ (L (ix1 i)).toInt < 8000) :
    tail (Blocks.col X (Take.takeRows C L)) = fun _ => Cert.Spec.meanDist X L C := by
  -- row i of the gathered centers is the center label i names, so each term is the specification's
  have hs : ∑ i : Fin 8192, Cert.Spec.clampedDist (fun k => X (ix2 i k)) (fun k => Take.takeRows C L (ix2 i k))
      = ∑ i : Fin 8192, Cert.Spec.sampleDist X L C i :=
    Finset.sum_congr rfl fun i _ =>
      congrArg (Cert.Spec.clampedDist (fun k => X (ix2 i k))) (funext fun k => Take.takeRows_apply C L hL i k)
  rw [tail_col, hs]
  unfold Cert.Spec.meanDist
  rfl

/-- The run, read: the result buffer at `tail` of the column of distances between the first argument and the
    gathered centers, the three arguments unchanged. -/
theorem run : θ_run defs (onTc (τ := τ) (main (F := Ideal))) ⟨m, fun _ => 0, ρ⟩ fun r => ∀ c : Dev nD,
      r.2.mem ((c.tc : Thread nD τ).loc main_v3)
        = tail (Blocks.col (m ((c.tc : Thread nD τ).loc main_arg0))
            (Take.takeRows (m ((c.tc : Thread nD τ).loc main_arg2)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans
        ((tail_result m c).trans (by rw [Blocks.final, V_main_arg0, Take.V_main_v0])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Mean

end
-- ==== Proof.RefValue.lean ====
/-
  The reference, read at the extended reals, is the mean clamped squared distance of the specification.

  The reference builds the whole `[8192, 8000]` table `‖x_i‖² + ‖c_j‖² - 2⟨x_i, c_j⟩` and then keeps, in row `i`, the
  entry in the column label `i` names (`take_along_axis`: the label made absolute, tested against `[0, 7999]`, one
  element gathered per row, the fill value where the test fails). For labels in `[0, 8000)` the test passes and the
  kept entry is the table's at `(i, label i)`: the squared distance of sample `i` to its own center, in the same
  association as the specification's. The clamp and the mean follow it operation by operation.
-/
import proofs.«427985_j5738076307838_3_alg».proof.Proof.RefRead
import proofs.«427985_j5738076307838_3_alg».proof.Proof.LibIndexRange
import proofs.«427985_j5738076307838_3_alg».proof.Proof.LibTakeRows
import proofs.«427985_j5738076307838_3_alg».proof.Proof.Spec
import Idealize.ShloMosaic.Lib.ValueIdxRank1

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x0 : (⟨S8192x512, .f32⟩ : BufTy).Contents (Elt Ideal)) (x1 : (⟨S8192, .i32⟩ : BufTy).Contents (Elt Ideal))
  (x2 : (⟨S8000x512, .f32⟩ : BufTy).Contents (Elt Ideal))

/-! ## The labels as start indices -/

/-- The absolute index of a label in range is the label. -/
theorem absIdx_apply (i : Fin 8192) (z : Fin 1) (h0 : 0 ≤ (x1 (ix1 i)).toInt) :
    val_main_call0_v4 (F := Ideal) x1 (ix2 i z) = x1 (ix1 i) := by
  have e : idx_main_v13 (ix2 i z) = ix1 i := funext fun a => Fin.ext (by match a with | ⟨0, _⟩ => rfl)
  rw [val_main_call0_v4_apply, val_main_call0_v1_apply, val_main_call0_v3_apply, val_main_v13_apply,
    val_main_call0_v0_apply, val_main_call0_c_apply, val_main_call0_v2_apply, val_main_call0_c_0_apply, e]
  exact IndexRange.select_wrap_eq 8000#32 h0

/-- The same index in the `[8192, 1, 1]` layout the gather takes. -/
theorem startIdx_apply (i : Fin 8192) (q z : Fin 1) (h0 : 0 ≤ (x1 (ix1 i)).toInt) :
    val_main_call0_v5 (F := Ideal) x1 (ix3 i q z) = x1 (ix1 i) := by
  have e : idx_main_call0_v5 (ix3 i q z) = ix2 i (0 : Fin 1) := funext fun a => Fin.ext (by
    match a with
    | ⟨0, _⟩ =>
      show ((i.val * 1 + q.val) * 1 + z.val) / 1 = i.val
      have := q.isLt; have := z.isLt; omega
    | ⟨1, _⟩ => rfl)
  rw [val_main_call0_v5_apply, e]
  exact absIdx_apply x1 i 0 h0

/-- With every label in `[0, 8000)` every range test passes. -/
theorem ok_apply (hL : ∀ i : Fin 8192, 0 ≤ (x1 (ix1 i)).toInt ∧ (x1 (ix1 i)).toInt < 8000) (y : S8192x1.Idx) :
    val_main_call0_v12 (F := Ideal) x1 y = 1#1 := by
  unfold val_main_call0_v12
  refine IndexRange.reduce_andi_of_forall _ _ _ _ rfl (fun j => ?_) y
  obtain ⟨i, q, z, rfl⟩ : ∃ (i : Fin 8192) (q z : Fin 1), j = ix3 i q z := ⟨j 0, j 1, j 2, eq_ix3 j⟩
  obtain ⟨h0, h1⟩ := hL i
  rw [val_main_call0_v11_apply, val_main_call0_v7_apply, val_main_call0_v10_apply, startIdx_apply x1 i q z h0,
    val_main_call0_v6_apply, val_main_call0_c_2_apply, val_main_call0_v9_apply, val_main_call0_v8_apply,
    val_main_call0_c_1_apply, IndexRange.sge_zero_eq_one h0, IndexRange.sle_eq_one 7999 (by norm_num) (by omega)]
  decide

/-! ## The table of squared distances at one entry -/

/-- Entry `(i, r)` of the table: `(‖x_i‖² + ‖c_r‖²) - 2⟨x_i, c_r⟩`, each norm and the product a sum over the 512
    columns (the host's sums start from its zero literal). -/
theorem table_apply (i : Fin 8192) (r : Fin 8000) :
    val_main_v12 (F := Ideal) x0 x2 (ix2 i r)
      = ((Ideal.ofBits .f32 0x00000000#32 + ∑ k : Fin 512, x0 (ix2 i k) * x0 (ix2 i k))
          + (Ideal.ofBits .f32 0x00000000#32 + ∑ k : Fin 512, x2 (ix2 r k) * x2 (ix2 r k)))
        - Ideal.ofBits .f32 0x40000000#32 * ∑ k : Fin 512, x0 (ix2 i k) * x2 (ix2 r k) := by
  have ex : ∀ k : Fin 512, idx_main_v1 (idx_main_v2 (idx_main_v6 (ix2 i r))) k = ix2 i k := fun k =>
    funext fun a => Fin.ext (by match a with | ⟨0, _⟩ => rfl | ⟨1, _⟩ => rfl)
  have ec : ∀ k : Fin 512, idx_main_v4 (idx_main_v5 (idx_main_v7 (ix2 i r))) k = ix2 r k := fun k =>
    funext fun a => Fin.ext (by match a with | ⟨0, _⟩ => rfl | ⟨1, _⟩ => rfl)
  have el : ∀ k : Fin 512, lidx_main_v9 (ix2 i r) k = ix2 i k := fun k =>
    funext fun a => Fin.ext (by match a with | ⟨0, _⟩ => rfl | ⟨1, _⟩ => rfl)
  have er : ∀ k : Fin 512, ridx_main_v9 (ix2 i r) k = ix2 r k := fun k =>
    funext fun a => Fin.ext (by match a with | ⟨0, _⟩ => rfl | ⟨1, _⟩ => rfl)
  rw [val_main_v12_apply, val_main_v8_apply, val_main_v11_apply, val_main_v6_apply, val_main_v2_apply,
    val_main_v1_apply, val_main_v7_apply, val_main_v5_apply, val_main_v4_apply, val_main_v10_apply,
    val_main_cst_1_apply, val_main_v9_apply]
  simp only [val_main_v0_apply, val_main_v3_apply, val_main_cst_apply, val_main_cst_0_apply, ex, ec, el, er,
    Ideal.mulf_def, Ideal.addf_def, Ideal.subf_def, Ideal.ofBits_def]

/-! ## One sample, then the mean -/

/-- The gather keeps, in row `i`, the table's entry in the column label `i` names. -/
theorem kept_apply (hL : ∀ i : Fin 8192, 0 ≤ (x1 (ix1 i)).toInt ∧ (x1 (ix1 i)).toInt < 8000) (i : Fin 8192) :
    val_main_call0_v13 (F := Ideal) x0 x1 x2 (ix2 i (0 : Fin 1))
      = val_main_v12 (F := Ideal) x0 x2 (ix2 i (Cert.Spec.row x1 i)) := by
  unfold val_main_call0_v13
  refine (TakeRows.alongTake_apply (n := 8192) (M := 8000) (Q := 1) (by norm_num)
    gather_S8192x8000_S8192x1x1_S8192x1_n_1_0_0_1_2_11_wf
    (val_main_v12 (F := Ideal) x0 x2) (val_main_call0_v5 (F := Ideal) x1) i (0 : Fin 1)).trans ?_
  refine congrArg (fun r => val_main_v12 (F := Ideal) x0 x2 (ix2 i r)) (Fin.ext ?_)
  show min (val_main_call0_v5 (F := Ideal) x1 (ix3 i 0 0)).toInt.toNat (8000 - 1) = min (x1 (ix1 i)).toInt.toNat 7999
  rw [startIdx_apply x1 i 0 0 (hL i).1]

/-- The clamped entry the reference keeps for sample `i` is the specification's distance of sample `i`. -/
theorem sample_apply (hL : ∀ i : Fin 8192, 0 ≤ (x1 (ix1 i)).toInt ∧ (x1 (ix1 i)).toInt < 8000) (i : Fin 8192) :
    val_main_v16 (F := Ideal) x0 x1 x2 (ix1 i) = Cert.Spec.sampleDist x0 x1 x2 i := by
  have e15 : idx_main_v15 (ix1 i) = ix2 i (0 : Fin 1) := funext fun a => Fin.ext (by
    match a with
    | ⟨0, _⟩ => show i.val / 1 = i.val; omega
    | ⟨1, _⟩ => rfl)
  rw [val_main_v16_apply, val_main_call1_v4_apply, val_main_call1_v3_apply, val_main_cst_3_apply,
    val_main_call1_v2_apply, val_main_call1_v1_apply, val_main_call1_v0_apply, val_main_cst_2_apply,
    val_main_v15_apply, e15, val_main_v14_apply, ok_apply x1 hL, select_one, kept_apply x0 x1 x2 hL i, table_apply]
  unfold Cert.Spec.sampleDist Cert.Spec.clampedDist
  simp only [Ideal.minimumf_def, Ideal.maximumf_def, Ideal.ofBits_def, Ideal.ofBits_zero_f32, zero_add]

/-- THE REFERENCE IS THE SPECIFICATION: under labels in range its result is the mean clamped squared distance. -/
theorem result_eq (hL : ∀ i : Fin 8192, 0 ≤ (x1 (ix1 i)).toInt ∧ (x1 (ix1 i)).toInt < 8000) :
    val_main_v18 (F := Ideal) x0 x1 x2 = fun _ => Cert.Spec.meanDist x0 x1 x2 := by
  funext j
  -- the sum over the rank-1 index set is the sum over the 8192 samples, term by term the specification's
  have hs : ∑ y : S8192.Idx, val_main_v16 (F := Ideal) x0 x1 x2 y = ∑ i : Fin 8192, Cert.Spec.sampleDist x0 x1 x2 i :=
    (Equiv.sum_comp (idxEquiv1 (n := 8192)).symm (val_main_v16 (F := Ideal) x0 x1 x2)).symm.trans
      (Finset.sum_congr rfl fun i _ => sample_apply x0 x1 x2 hL i)
  rw [val_main_v18_apply, val_main_v17_apply, val_main_cst_4_apply, val_main_cst_5_apply, hs]
  unfold Cert.Spec.meanDist
  rfl

end Cert.ReferenceIdeal.RefValue

end
-- ==== Proof.lean ====
/-
  CenterLoss, kernel against reference, over the extended reals.

  Both programs return the mean over 8192 samples of the clamped squared distance between a sample `x_i` (512 features)
  and the center `c_{l_i}` its label names:  mean_i  min(hi, max(lo, (‖x_i‖² + ‖c_{l_i}‖²) - 2⟨x_i, c_{l_i}⟩)).
  The kernel first gathers the labelled rows of the centers and computes the three row sums per sample in one pass;
  the reference builds the whole `[8192, 8000]` table of squared distances and keeps one entry per row. Selecting row
  `l_i` before or after the arithmetic gives the same sums in the same association, so no algebraic law beyond
  `0 + s = s` (the host's sums start from a zero literal, the kernel's lane sums do not) is needed, and the finiteness of the
  float inputs is never used.

  What IS used is the added conjunct of the precondition: every label lies in `[0, 8000)`. Both programs fill a row
  whose label is out of range with the NaN pattern, and the two then differ (the kernel does arithmetic on the filled
  row, the reference clamps the filled entry), so the claim is stated where the reference indexes in range.

  The modules: `Spec` (the mean, stated once), `LabelRange` (the labels' range out of the precondition),
  `KernelBody` / `KernelBlocks` / `KernelTake` / `KernelMean` (the kernel: one row of a tile, the tiles to the
  column, the gathered rows, the host tail and the run), `RefValue` (the reference is the specification), and the
  general lemmas `LibIndexRange`, `LibTakeRows`, `LibRowSum`.
-/
import proofs.«427985_j5738076307838_3_alg».proof.Defs
import proofs.«427985_j5738076307838_3_alg».proof.Proof.Gen.Kernel
import proofs.«427985_j5738076307838_3_alg».proof.Proof.Gen.Kernel.Skeleton
import proofs.«427985_j5738076307838_3_alg».proof.Proof.Gen.Kernel.Launch
import proofs.«427985_j5738076307838_3_alg».proof.Proof.Gen.Kernel.Points
import proofs.«427985_j5738076307838_3_alg».proof.Proof.Gen.Kernel.Frame
import proofs.«427985_j5738076307838_3_alg».proof.Proof.Gen.KernelIdeal
import proofs.«427985_j5738076307838_3_alg».proof.Proof.Gen.KernelIdeal.Skeleton
import proofs.«427985_j5738076307838_3_alg».proof.Proof.Gen.KernelIdeal.Launch
import proofs.«427985_j5738076307838_3_alg».proof.Proof.Gen.KernelIdeal.Points
import proofs.«427985_j5738076307838_3_alg».proof.Proof.Gen.KernelIdeal.Frame
import proofs.«427985_j5738076307838_3_alg».proof.Proof.Gen.ReferenceIdeal
import proofs.«427985_j5738076307838_3_alg».proof.Proof.Gen.Pre_finite_inputs
import proofs.«427985_j5738076307838_3_alg».proof.Proof.RefRun
import proofs.«427985_j5738076307838_3_alg».proof.Proof.RefRead
import proofs.«427985_j5738076307838_3_alg».proof.Proof.LabelRange
import proofs.«427985_j5738076307838_3_alg».proof.Proof.KernelMean
import proofs.«427985_j5738076307838_3_alg».proof.Proof.RefValue
import Idealize.ShloMosaic.Adequacy
import Idealize.ShloMosaic.Init

noncomputable section

namespace Cert.Proof

open Idealize.ShloMosaic Idealize.SL.Sem Idealize.ShloMosaic.ValueIdx

/-- Under the precondition every label, on every device, has a signed value in `[0, 8000)`. -/
theorem labels_in_range
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) (i : Fin 8192) :
    0 ≤ ((m ((c.tc : Thread Cert.KernelIdeal.nD Cert.KernelIdeal.τ).loc Cert.KernelIdeal.main_arg1)) (ix1 i)).toInt
      ∧ ((m ((c.tc : Thread Cert.KernelIdeal.nD Cert.KernelIdeal.τ).loc Cert.KernelIdeal.main_arg1)) (ix1 i)).toInt < 8000 :=
  Cert.LabelRange.toInt_mem _ _ _ (hpre c) (ix1 i)

/-- The reference runs, its arguments unchanged: its generated run with the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.RunP.run (F := Ideal) m ρ)

/-- Both programs end at the specification's mean of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c _ => Cert.Spec.meanDist
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c =>
      ⟨(h c).1.trans (Cert.KernelIdeal.Mean.tail_eq_mean _ _ _ (labels_in_range m hpre c)), (h c).2⟩)
      (Cert.KernelIdeal.Mean.run m ρ)
  · refine (θ_run Cert.ReferenceIdeal.defs _ _).mono (fun _ h c => ⟨?_, (h c).2⟩)
      (Cert.ReferenceIdeal.RunP.run (F := Ideal) m' ρ')
    rw [(h c).1, (hagree c).1, (hagree c).2.1, (hagree c).2.2]
    exact (Cert.ReferenceIdeal.ReadP.val_main_v18_eq _ _ _).trans
      (Cert.ReferenceIdeal.RefValue.result_eq _ _ _ (labels_in_range m hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
